-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x2048 : Shape := ⟨2, ![4096, 2048]⟩
abbrev S2048 : Shape := ⟨1, ![2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x4096 .f32) (main_arg1 : FVec F S4096x2048 .f32) (main_arg2 : FVec F S4096x2048 .f32) (main_arg3 : FVec F S2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4096x4096 : Shape := ⟨2, ![4096, 4096]⟩
abbrev S4096x2048 : Shape := ⟨2, ![4096, 2048]⟩
abbrev S2048 : Shape := ⟨1, ![2048]⟩
abbrev S1024x512 : Shape := ⟨2, ![1024, 512]⟩
abbrev S512x1024 : Shape := ⟨2, ![512, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x2048.size a
  hwx0_1 : ∀ i : grid0.Coords, EltTy.bits .f32 = 32 ∨ (Rect.block (s := S4096x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x2048.size a
  hwx0_2 : ∀ i : grid0.Coords, EltTy.bits .f32 = 32 ∨ (Rect.block (s := S4096x2048) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S2048.size a
  hwx0_3 : ∀ i : grid0.Coords, EltTy.bits .f32 = 32 ∨ (Rect.block (s := S2048) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x2048.size a
  hwx0_4 : ∀ i : grid0.Coords, EltTy.bits .f32 = 32 ∨ (Rect.block (s := S4096x2048) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x2048 : Shape := ⟨2, ![4096, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.BlockSum.lean ====
/-
  The arithmetic of a contraction of length 4096 taken in eight consecutive blocks of 512, over the extended reals.

  For a family `f : Fin 4096 → EReal`, `blockSum f kb` is the sum of the 512 terms `f (512·kb + kk)`, and
  `runSum f j` is `((0 + blockSum f 0) + blockSum f 1) + … + blockSum f (j-1)`: the value an accumulator that starts
  at zero holds after `j` blocks have been added to it, in order. Addition of extended reals is commutative and
  associative (with `⊥ + ⊤ = ⊥`), so the whole sum `∑ K, f K` may be regrouped into its eight blocks without any
  finiteness assumption: `runSum f 8 = ∑ K, f K`.

  `dense X M W B` is the layer itself: at row `r` and column `c`, `∑ K, X[r,K] · (M[K,c] · W[K,c]) + B[c]`.
-/
import Idealize.ShloMosaic.Lib.ValueIdx
import Idealize.ShloMosaic.PureOps.Ideal
import Mathlib.Algebra.BigOperators.Fin
import Mathlib.Logic.Equiv.Fin.Basic

noncomputable section

namespace Cert.MaskedDense

open Idealize.ShloMosaic Idealize.ShloMosaic.ValueIdx

/-- Block `kb` of the family: its 512 terms at positions `512·kb … 512·kb + 511`, summed. -/
def blockSum (f : Fin 4096 → EReal) (kb : Fin 8) : EReal :=
  ∑ kk : Fin 512, f ⟨512 * kb.val + kk.val, by have := kb.isLt; have := kk.isLt; omega⟩

/-- The accumulator after `j` blocks: zero, then each block added on the right, in order. -/
def runSum (f : Fin 4096 → EReal) : ℕ → EReal
  | 0 => 0
  | j + 1 => runSum f j + (if h : j < 8 then blockSum f ⟨j, h⟩ else 0)

theorem runSum_zero (f : Fin 4096 → EReal) : runSum f 0 = 0 := rfl

/-- One more block: the accumulator plus that block. -/
theorem runSum_succ (f : Fin 4096 → EReal) (j : ℕ) (h : j < 8) :
    runSum f (j + 1) = runSum f j + blockSum f ⟨j, h⟩ := by
  show runSum f j + (if h : j < 8 then blockSum f ⟨j, h⟩ else 0) = _
  rw [dif_pos h]

/-- A position below 4096 is a block number below 8 and an offset below 512: `K = 512·kb + kk`. -/
def splitK : Fin 8 × Fin 512 ≃ Fin 4096 :=
  (finProdFinEquiv (m := 8) (n := 512)).trans (finCongr (by norm_num))

theorem splitK_val (kb : Fin 8) (kk : Fin 512) : (splitK (kb, kk)).val = 512 * kb.val + kk.val := by
  show kk.val + 512 * kb.val = 512 * kb.val + kk.val
  omega

/-- The whole sum is the sum of its eight blocks. -/
theorem sum_eq_blocks (f : Fin 4096 → EReal) : ∑ K : Fin 4096, f K = ∑ kb : Fin 8, blockSum f kb := by
  rw [← Equiv.sum_comp splitK f, Fintype.sum_prod_type]
  refine Finset.sum_congr rfl fun kb _ => Finset.sum_congr rfl fun kk _ => ?_
  exact congrArg f (Fin.ext (splitK_val kb kk))

/-- After all eight blocks the accumulator holds the whole sum. -/
theorem runSum_eight (f : Fin 4096 → EReal) : runSum f 8 = ∑ K : Fin 4096, f K := by
  rw [sum_eq_blocks, Fin.sum_univ_eight,
    runSum_succ f 7 (by norm_num), runSum_succ f 6 (by norm_num), runSum_succ f 5 (by norm_num),
    runSum_succ f 4 (by norm_num), runSum_succ f 3 (by norm_num), runSum_succ f 2 (by norm_num),
    runSum_succ f 1 (by norm_num), runSum_succ f 0 (by norm_num), runSum_zero, zero_add]
  rfl

/-- One term of the contraction at row `r`, column `c`: `X[r,K] · (M[K,c] · W[K,c])`. -/
def term (X : (⟨2, ![4096, 4096]⟩ : Shape).Idx → EReal) (M W : (⟨2, ![4096, 2048]⟩ : Shape).Idx → EReal)
    (r : Fin 4096) (c : Fin 2048) (K : Fin 4096) : EReal :=
  X (ix2 r K) * (M (ix2 K c) * W (ix2 K c))

/-- The layer: the input times the masked weights, plus the bias along the columns. -/
def dense (X : (⟨2, ![4096, 4096]⟩ : Shape).Idx → EReal) (M W : (⟨2, ![4096, 2048]⟩ : Shape).Idx → EReal)
    (B : (⟨1, ![2048]⟩ : Shape).Idx → EReal) : (⟨2, ![4096, 2048]⟩ : Shape).Idx → EReal :=
  fun i => (∑ K : Fin 4096, term X M W (i 0) (i 1) K) + B (ix1 (i 1))

end Cert.MaskedDense

end
-- ==== Proof.Payloads.lean ====
/-
  The kernel body's three stored values, read at one index over the extended reals.

  At a grid point the body holds a 1024×512 block `x` of the input, 512×1024 blocks `mk`, `w` of the mask and the
  weights, a 1024 block `b` of the bias, and a 1024×1024 accumulator. Changes of float format are the identity on
  extended reals and a matrix product into a zero accumulator is the plain sum of products, so:
    * the reset value is `0` everywhere;
    * the accumulation step leaves, at `(p, q)`, `acc[p,q] + ∑ kk < 512, x[p,kk] · (mk[kk,q] · w[kk,q])`;
    * the emitted block is, at `(p, q)`, `acc[p,q] + b[q]` (the bias row broadcast down the rows).
-/
import proofs.«159921_j38096359916173_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices: row `p` of the left block against column `q` of the right block -/

theorem lhs_axis0 (i : S1024x1024.Idx) (k : dot_S1024x512_S512x1024_S1024x1024_1_0_0_1_n_n.contr.Idx) :
    (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_axis1 (i : S1024x1024.Idx) (k : dot_S1024x512_S512x1024_S1024x1024_1_0_0_1_n_n.contr.Idx) :
    (dot_S1024x512_S512x1024_S1024x1024_1_0_0_1_n_n.lhsIdx i k 1).val = (k ⟨0, by decide⟩).val :=
  dot_S1024x512_S512x1024_S1024x1024_1_0_0_1_n_n.lhsIdx_val_of_single rfl i k
theorem rhs_axis0 (i : S1024x1024.Idx) (k : dot_S1024x512_S512x1024_S1024x1024_1_0_0_1_n_n.contr.Idx) :
    (dot_S1024x512_S512x1024_S1024x1024_1_0_0_1_n_n.rhsIdx i k 0).val = (k ⟨0, by decide⟩).val :=
  dot_S1024x512_S512x1024_S1024x1024_1_0_0_1_n_n.rhsIdx_val_of_single rfl i k
theorem rhs_axis1 (i : S1024x1024.Idx) (k : dot_S1024x512_S512x1024_S1024x1024_1_0_0_1_n_n.contr.Idx) :
    (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The block product into a zero accumulator, at `(p, q)`: the 512 products of row `p` with column `q`, summed. -/
theorem product_apply (a : FVec Ideal S1024x512 .bf16) (b : FVec Ideal S512x1024 .bf16) (p q : Fin 1024) :
    matmul dot_S1024x512_S512x1024_S1024x1024_1_0_0_1_n_n none a b (constant S1024x1024 .f32 0x00000000#32) (ix2 p q)
      = ∑ kk : Fin 512, a (ix2 p kk) * b (ix2 kk q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun kk _ => ?_
  have hk := ValueIdx.contrEquiv1_symm_val dot_S1024x512_S512x1024_S1024x1024_1_0_0_1_n_n 512 rfl rfl kk
  have el : dot_S1024x512_S512x1024_S1024x1024_1_0_0_1_n_n.lhsIdx (ix2 p q) ((ValueIdx.contrEquiv1 dot_S1024x512_S512x1024_S1024x1024_1_0_0_1_n_n 512 rfl rfl).symm kk) = ix2 p kk := funext fun ax => Fin.ext (by
    match ax with
    | ⟨0, _⟩ => exact lhs_axis0 _ _
    | ⟨1, _⟩ => exact (lhs_axis1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm kk) = ix2 kk q := funext fun ax => Fin.ext (by
    match ax with
    | ⟨0, _⟩ => exact (rhs_axis0 _ _).trans hk
    | ⟨1, _⟩ => exact rhs_axis1 _ _)
  rw [el, er]

/-! ## The three stored values -/

/-- The reset stores zero everywhere. -/
theorem reset_apply (j : S1024x1024.Idx) : k0_pay1 (F := Ideal) j = 0 := by
  unfold k0_pay1
  simp only [shapeCast_self]
  exact Ideal.ofBits_zero_f32

/-- The accumulation step at `(p, q)`: what the accumulator held there, plus this block's 512 products
    `x[p,kk] · (mk[kk,q] · w[kk,q])`. -/
theorem step_apply (x : Vec Ideal S1024x512 .f32) (mk w : Vec Ideal S512x1024 .f32) (acc : Vec Ideal S1024x1024 .f32)
    (p q : Fin 1024) :
    k0_pay2 x mk w acc (ix2 p q) = acc (ix2 p q) + ∑ kk : Fin 512, x (ix2 p kk) * (mk (ix2 kk q) * w (ix2 kk q)) := by
  unfold k0_pay2
  simp only [shapeCast_self]
  rw [addf_apply, product_apply]
  rfl

/-- The emitted block at `(p, q)`: the accumulator there plus the bias at column `q`. -/
theorem emit_apply (acc : Vec Ideal S1024x1024 .f32) (b : Vec Ideal S1024 .f32) (p q : Fin 1024) :
    k0_pay3 acc b (ix2 p q) = acc (ix2 p q) + b (ix1 q) := by
  unfold k0_pay3
  rw [addf_apply, broadcastTo_1b_ab_apply, shapeCast_a_1a_apply]

end Cert.KernelIdeal.Payload

end
-- ==== Proof.Pieces.lean ====
/-
  What each control case of the body leaves behind, as values.

  The body has three cases, by the position `k` of the grid point along the contraction axis:
    * first block (`k = 0`): the accumulator is reset to zero, read back, and the step is applied to that zero;
    * a middle block: the step is applied to what the accumulator held on entry;
    * last block (`k = 7`): the step is applied to what the accumulator held on entry, and the result, read back,
      plus the bias block is stored as the output block.
  Every store covers its whole buffer and every load reads a whole buffer, so what a buffer holds after the body is
  the value of the last store into it, and a load after a store reads that store's value.
-/
import proofs.«159921_j38096359916173_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin2 : (![0, 0] : Fin 2 → Nat) = fun _ => 0 := funext fun a => by fin_cases a <;> rfl
theorem origin1 : (![0] : Fin 1 → Nat) = fun _ => 0 := funext fun a => by fin_cases a <;> rfl

/-- First block: the accumulator ends at the step applied to the zero block. -/
theorem scratch_first (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i)
    (x0 : Vec F S1024x512 .f32) (x1 : Vec F S512x1024 .f32) (x2 : Vec F S512x1024 .f32) (x3 : Vec F S1024 .f32) :
    sout0_A_0 c i arg3 harg3 arg4 harg4 arg5 harg5 arg6 harg6 arg7 harg7 arg8 harg8 hc0 hc1 x0 x1 x2 x3
      = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, harg5.read_unread, harg6.read_unread, harg8.read_unread, View.ld_unit_zero (S := S1024x512) origin2, View.ld_unit_zero (S := S512x1024) origin2, View.ld_unit_zero (S := S1024x1024) origin2, View.ld_unit_zero (S := S1024) origin1, View.readCov_unit_zero (S := S1024x1024) _ origin2]

/-- A middle block: the accumulator ends at the step applied to what it held on entry. -/
theorem scratch_middle (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i)
    (x0 : Vec F S1024x512 .f32) (x1 : Vec F S512x1024 .f32) (x2 : Vec F S512x1024 .f32) (x3 : Vec F S1024 .f32) (xs0 : Vec F S1024x1024 .f32) :
    sout0_B_0 c i arg3 harg3 arg4 harg4 arg5 harg5 arg6 harg6 arg7 harg7 arg8 harg8 hc0 hc1 x0 x1 x2 x3 xs0
      = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) origin2]
  simp only [View.readAt_eq_ld, harg3.read_unread, harg4.read_unread, harg5.read_unread, harg6.read_unread, harg8.read_unread, View.ld_unit_zero (S := S1024x512) origin2, View.ld_unit_zero (S := S512x1024) origin2, View.ld_unit_zero (S := S1024x1024) origin2, View.ld_unit_zero (S := S1024) origin1, View.readCov_unit_zero (S := S1024x1024) _ origin2]

/-- Last block: the accumulator ends at the step applied to what it held on entry, … -/
theorem scratch_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .f32) (x2 : Vec F S512x1024 .f32) (x3 : Vec F S1024 .f32) (xs0 : Vec F S1024x1024 .f32) :
    sout0_C_0 c i arg3 harg3 arg4 harg4 arg5 harg5 arg6 harg6 arg7 harg7 arg8 harg8 hc0 hc1 x0 x1 x2 x3 xs0
      = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) origin2]
  simp only [View.readAt_eq_ld, harg3.read_unread, harg4.read_unread, harg5.read_unread, harg6.read_unread, harg8.read_unread, View.ld_unit_zero (S := S1024x512) origin2, View.ld_unit_zero (S := S512x1024) origin2, View.ld_unit_zero (S := S1024x1024) origin2, View.ld_unit_zero (S := S1024) origin1, View.readCov_unit_zero (S := S1024x1024) _ origin2]

/-- … and the output block is that accumulator, read back, plus the bias block. -/
theorem out_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i)
    (x0 : Vec F S1024x512 .f32) (x1 : Vec F S512x1024 .f32) (x2 : Vec F S512x1024 .f32) (x3 : Vec F S1024 .f32) (xs0 : Vec F S1024x1024 .f32) :
    out0_C_4 c i arg3 harg3 arg4 harg4 arg5 harg5 arg6 harg6 arg7 harg7 arg8 harg8 hc0 hc1 x0 x1 x2 x3 xs0
      = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) origin2]
  simp only [View.readAt_eq_ld, harg3.read_unread, harg4.read_unread, harg5.read_unread, harg6.read_unread, harg8.read_unread, View.ld_unit_zero (S := S1024x512) origin2, View.ld_unit_zero (S := S512x1024) origin2, View.ld_unit_zero (S := S1024x1024) origin2, View.ld_unit_zero (S := S1024) origin1, View.readCov_unit_zero (S := S1024x1024) _ origin2]

end Cert.KernelIdeal.Pieces

end
-- ==== Proof.Blocks.lean ====
/-
  Where each window's block sits in its array.

  The grid is 4 × 2 × 8, walked with the last axis fastest, so point `t` has row-block `t / 16`, column-block
  `(t / 8) % 2` and contraction-block `t % 8`. The input's block at `t` is rows `1024·(t/16) …` by columns
  `512·(t%8) …`; the mask's and the weights' block is rows `512·(t%8) …` by columns `1024·((t/8)%2) …`; the bias
  block is entries `1024·((t/8)%2) …`; the output's block is rows `1024·(t/16) …` by columns `1024·((t/8)%2) …`.
  A block read at a local index is the array read at the block's origin plus that index.
-/
import proofs.«159921_j38096359916173_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The four argument arrays as the region finds them, and each one's block at a grid point. -/
abbrev xArr (c : Dev nD) : Vec F S4096x4096 .f32 := V m c main_arg0
abbrev mkArr (c : Dev nD) : Vec F S4096x2048 .f32 := V m c main_arg1
abbrev wArr (c : Dev nD) : Vec F S4096x2048 .f32 := V m c main_arg2
abbrev bArr (c : Dev nD) : Vec F S2048 .f32 := V m c main_arg3
abbrev xBlk (c : Dev nD) (t : Fin cfg0.N) : Vec F S1024x512 .f32 := iblk m c 0 t
abbrev mkBlk (c : Dev nD) (t : Fin cfg0.N) : Vec F S512x1024 .f32 := iblk m c 1 t
abbrev wBlk (c : Dev nD) (t : Fin cfg0.N) : Vec F S512x1024 .f32 := iblk m c 2 t
abbrev bBlk (c : Dev nD) (t : Fin cfg0.N) : Vec F S1024 .f32 := iblk m c 3 t

/-! ## The block indices at a point, decided once over the 64 points -/

theorem index_x : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem index_mk : ∀ t : Fin cfg0.N, win0_1.index t (0 : Fin 2) = t.val % 8 ∧ win0_1.index t (1 : Fin 2) = t.val / 8 % 2 :=
  (by decide +kernel : ∀ t : Fin grid0.N, win0_1.index t (0 : Fin 2) = t.val % 8 ∧ win0_1.index t (1 : Fin 2) = t.val / 8 % 2)
theorem index_w : ∀ t : Fin cfg0.N, win0_2.index t (0 : Fin 2) = t.val % 8 ∧ win0_2.index t (1 : Fin 2) = t.val / 8 % 2 :=
  (by decide +kernel : ∀ t : Fin grid0.N, win0_2.index t (0 : Fin 2) = t.val % 8 ∧ win0_2.index t (1 : Fin 2) = t.val / 8 % 2)
theorem index_b : ∀ t : Fin cfg0.N, win0_3.index t (0 : Fin 1) = t.val / 8 % 2 :=
  (by decide +kernel : ∀ t : Fin grid0.N, win0_3.index t (0 : Fin 1) = t.val / 8 % 2)
theorem index_o : ∀ t : Fin cfg0.N, win0_4.index t (0 : Fin 2) = t.val / 16 ∧ win0_4.index t (1 : Fin 2) = t.val / 8 % 2 :=
  (by decide +kernel : ∀ t : Fin grid0.N, win0_4.index t (0 : Fin 2) = t.val / 16 ∧ win0_4.index t (1 : Fin 2) = t.val / 8 % 2)

/-! ## A block at a local index is the array at the global one -/

/-- The input's block: local `(p, kk)` is global `(1024·(t/16) + p, 512·(t%8) + kk)`. -/
theorem xBlk_apply (c : Dev nD) (t : Fin cfg0.N) (p : Fin 1024) (kk : Fin 512) (r K : Fin 4096)
    (hr : r.val = 1024 * (t.val / 16) + p.val) (hK : K.val = 512 * (t.val % 8) + kk.val) :
    xBlk m c t (ix2 p kk) = xArr m c (ix2 r K) := by
  have hi := index_x t
  show iblk m c 0 t (ix2 p kk) = _
  unfold iblk
  rw [View.read_apply]
  show V m c main_arg0 _ = V m c main_arg0 _
  congr 1
  funext a
  apply Fin.ext
  match a with
  | ⟨0, _⟩ => show win0_0.index t 0 * 1024 + 1 * p.val = r.val; rw [hi.1, hr]; omega
  | ⟨1, _⟩ => show win0_0.index t 1 * 512 + 1 * kk.val = K.val; rw [hi.2, hK]; omega

/-- The mask's block: local `(kk, q)` is global `(512·(t%8) + kk, 1024·((t/8)%2) + q)`. -/
theorem mkBlk_apply (c : Dev nD) (t : Fin cfg0.N) (kk : Fin 512) (q : Fin 1024) (K : Fin 4096) (cl : Fin 2048)
    (hK : K.val = 512 * (t.val % 8) + kk.val) (hc : cl.val = 1024 * (t.val / 8 % 2) + q.val) :
    mkBlk m c t (ix2 kk q) = mkArr m c (ix2 K cl) := by
  have hi := index_mk t
  show iblk m c 1 t (ix2 kk q) = _
  unfold iblk
  rw [View.read_apply]
  show V m c main_arg1 _ = V m c main_arg1 _
  congr 1
  funext a
  apply Fin.ext
  match a with
  | ⟨0, _⟩ => show win0_1.index t 0 * 512 + 1 * kk.val = K.val; rw [hi.1, hK]; omega
  | ⟨1, _⟩ => show win0_1.index t 1 * 1024 + 1 * q.val = cl.val; rw [hi.2, hc]; omega

/-- The weights' block: the same rectangle as the mask's. -/
theorem wBlk_apply (c : Dev nD) (t : Fin cfg0.N) (kk : Fin 512) (q : Fin 1024) (K : Fin 4096) (cl : Fin 2048)
    (hK : K.val = 512 * (t.val % 8) + kk.val) (hc : cl.val = 1024 * (t.val / 8 % 2) + q.val) :
    wBlk m c t (ix2 kk q) = wArr m c (ix2 K cl) := by
  have hi := index_w t
  show iblk m c 2 t (ix2 kk q) = _
  unfold iblk
  rw [View.read_apply]
  show V m c main_arg2 _ = V m c main_arg2 _
  congr 1
  funext a
  apply Fin.ext
  match a with
  | ⟨0, _⟩ => show win0_2.index t 0 * 512 + 1 * kk.val = K.val; rw [hi.1, hK]; omega
  | ⟨1, _⟩ => show win0_2.index t 1 * 1024 + 1 * q.val = cl.val; rw [hi.2, hc]; omega

/-- The bias block: local `q` is global `1024·((t/8)%2) + q`. -/
theorem bBlk_apply (c : Dev nD) (t : Fin cfg0.N) (q : Fin 1024) (cl : Fin 2048)
    (hc : cl.val = 1024 * (t.val / 8 % 2) + q.val) :
    bBlk m c t (ix1 q) = bArr m c (ix1 cl) := by
  have hi := index_b t
  show iblk m c 3 t (ix1 q) = _
  unfold iblk
  rw [View.read_apply]
  show V m c main_arg3 _ = V m c main_arg3 _
  congr 1
  funext a
  apply Fin.ext
  match a with
  | ⟨0, _⟩ => show win0_3.index t 0 * 1024 + 1 * q.val = cl.val; rw [hi, hc]; omega

end Cert.KernelIdeal.Blocks

end
-- ==== Proof.Accum.lean ====
/-
  The accumulator across the grid, and the array the kernel leaves.

  Fix a row `r` and a column `cl` of the result, and let `f K = x[r,K] · (mask[K,cl] · w[K,cl])` be the 4096 terms
  of its contraction. The grid point `t` works on contraction block `t % 8` of the output block that holds `(r, cl)`.
  INVARIANT: after point `t` the accumulator holds, at the local position of `(r, cl)`, the running sum
  `runSum f (t % 8 + 1)` of blocks `0 … t % 8`. At `t % 8 = 0` the body resets to zero and adds block 0; at any
  other point it adds block `t % 8` to what the point before left, which belongs to the same output block. By
  induction on the point.
  At `t % 8 = 7` the body emits accumulator + bias: `runSum f 8 + b[cl] = ∑ K, f K + b[cl]`, the layer's value at
  `(r, cl)`. These are the only points that write the output back, and their blocks tile it.
-/
import proofs.«159921_j38096359916173_1_alg».proof.Proof.Gen.KernelIdeal.Value
import proofs.«159921_j38096359916173_1_alg».proof.Proof.BlockSum
import proofs.«159921_j38096359916173_1_alg».proof.Proof.Payloads
import proofs.«159921_j38096359916173_1_alg».proof.Proof.Pieces
import proofs.«159921_j38096359916173_1_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx
open Idealize.ShloMosaic.Pipeline (Dat)
open Cert.MaskedDense Cert.KernelIdeal.Blocks Cert.KernelIdeal.Payload Cert.KernelIdeal.Pieces

variable (m : (ℓ : Loc nD τ sig) → Buf (Elt Ideal) ℓ) (ρ : Dev nD → PrngReg)

/-- The contraction's terms at row `r`, column `cl`, over the arrays as the region finds them. -/
abbrev terms (c : Dev nD) (r : Fin 4096) (cl : Fin 2048) : Fin 4096 → EReal :=
  term (xArr m c) (mkArr m c) (wArr m c) r cl

/-- The 512 products the body forms at point `t` for local `(p, q)` are contraction block `t % 8` of `(r, cl)`. -/
theorem block_terms (c : Dev nD) (t : Fin cfg0.N) (p q : Fin 1024) (r : Fin 4096) (cl : Fin 2048) (kb : Fin 8)
    (hkb : kb.val = t.val % 8) (hr : r.val = 1024 * (t.val / 16) + p.val) (hc : cl.val = 1024 * (t.val / 8 % 2) + q.val) :
    ∑ kk : Fin 512, xBlk m c t (ix2 p kk) * (mkBlk m c t (ix2 kk q) * wBlk m c t (ix2 kk q))
      = blockSum (terms m c r cl) kb := by
  unfold blockSum
  refine Finset.sum_congr rfl fun kk _ => ?_
  have hK : (⟨512 * kb.val + kk.val, by have := kb.isLt; have := kk.isLt; omega⟩ : Fin 4096).val = 512 * (t.val % 8) + kk.val := by
    show 512 * kb.val + kk.val = _; rw [hkb]
  rw [xBlk_apply m c t p kk r _ hr hK, mkBlk_apply m c t kk q _ cl hK hc, wBlk_apply m c t kk q _ cl hK hc]
  rfl

/-- One accumulation step: if the accumulator held `runSum f j` at `(p, q)` and the point is on block `j`, the step
    leaves `runSum f (j + 1)` there. -/
theorem step_value (c : Dev nD) (t : Fin cfg0.N) (prev : Vec Ideal S1024x1024 .f32) (p q : Fin 1024) (r : Fin 4096)
    (cl : Fin 2048) (j : ℕ) (hj : j = t.val % 8) (hr : r.val = 1024 * (t.val / 16) + p.val)
    (hc : cl.val = 1024 * (t.val / 8 % 2) + q.val) (hprev : prev (ix2 p q) = runSum (terms m c r cl) j) :
    k0_pay2 (xBlk m c t) (mkBlk m c t) (wBlk m c t) prev (ix2 p q) = runSum (terms m c r cl) (j + 1) := by
  have hj8 : j < 8 := by rw [hj]; exact Nat.mod_lt _ (by norm_num)
  rw [step_apply, hprev, block_terms m c t p q r cl ⟨j, hj8⟩ hj hr hc, runSum_succ _ j hj8]

/-- At a point on block 0 the accumulator ends at `runSum f 1`: zero plus block 0. -/
theorem first_at (c : Dev nD) (t : Fin cfg0.N) (h0 : t.val % 8 = 0) (p q : Fin 1024) (r : Fin 4096) (cl : Fin 2048)
    (hr : r.val = 1024 * (t.val / 16) + p.val) (hc : cl.val = 1024 * (t.val / 8 % 2) + q.val) :
    (outsAt0 m c t.val t.isLt).2 (ix2 p q) = runSum (terms m c r cl) (t.val % 8 + 1) := by
  have h1 : ¬t.val % 8 = 7 := by omega
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  rw [h0]
  exact step_value m c t (k0_pay1 (F := Ideal)) p q r cl 0 h0.symm hr hc ((reset_apply (ix2 p q)).trans (runSum_zero _).symm)

/-- At a point on a later block the accumulator ends one block further than the point before left it. -/
theorem later_at (c : Dev nD) (t : Fin cfg0.N) (h0 : ¬t.val % 8 = 0) (p q : Fin 1024) (r : Fin 4096) (cl : Fin 2048)
    (hr : r.val = 1024 * (t.val / 16) + p.val) (hc : cl.val = 1024 * (t.val / 8 % 2) + q.val)
    (ih : (outsAt0 m c (t.val - 1) (Nat.lt_of_le_of_lt (Nat.sub_le _ _) t.isLt)).2 (ix2 p q) = runSum (terms m c r cl) (t.val % 8)) :
    (outsAt0 m c t.val t.isLt).2 (ix2 p q) = runSum (terms m c r cl) (t.val % 8 + 1) := by
  by_cases h1 : t.val % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
    exact step_value m c t _ p q r cl (t.val % 8) rfl hr hc ih
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
    exact step_value m c t _ p q r cl (t.val % 8) rfl hr hc ih

/-- THE INVARIANT: after point `n` the accumulator holds, at the local position of `(r, cl)`, the running sum of
    contraction blocks `0 … n % 8`. -/
theorem scratch_eq (c : Dev nD) (n : ℕ) : ∀ (hn : n < cfg0.N) (p q : Fin 1024) (r : Fin 4096) (cl : Fin 2048),
    r.val = 1024 * (n / 16) + p.val → cl.val = 1024 * (n / 8 % 2) + q.val →
    (outsAt0 m c n hn).2 (ix2 p q) = runSum (terms m c r cl) (n % 8 + 1) := by
  induction n with
  | zero => intro hn p q r cl hr hc; exact first_at m c ⟨0, hn⟩ rfl p q r cl hr hc
  | succ n ih =>
    intro hn p q r cl hr hc
    by_cases h0 : (n + 1) % 8 = 0
    · exact first_at m c ⟨n + 1, hn⟩ h0 p q r cl hr hc
    · have hp := ih (Nat.lt_of_succ_lt hn) p q r cl (by omega) (by omega)
      exact later_at m c ⟨n + 1, hn⟩ h0 p q r cl hr hc (hp.trans (congrArg _ (by show n % 8 + 1 = (n + 1) % 8; omega)))

/-- The layer's value over the arrays as the region finds them: what the result array is to hold. -/
abbrev result (c : Dev nD) : Buf (Elt Ideal) ((c : Thread nD τ).loc main_v0) :=
  dense (xArr m c) (mkArr m c) (wArr m c) (bArr m c)

/-- At a point on the last block the emitted block holds, at local `y`, the layer's value at `y`'s global position. -/
theorem emitted_apply (c : Dev nD) (t : Fin cfg0.N) (h0 : ¬t.val % 8 = 0) (h1 : t.val % 8 = 7) (y : S1024x1024.Idx)
    (r : Fin 4096) (cl : Fin 2048) (hr : r.val = 1024 * (t.val / 16) + (y 0).val) (hc : cl.val = 1024 * (t.val / 8 % 2) + (y 1).val) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 y
      = result m c (ix2 r cl) := by
  obtain ⟨p, q, rfl⟩ : ∃ (p q : Fin 1024), y = ix2 p q := ⟨y 0, y 1, eq_ix2 y⟩
  have hN : t.val < 64 := lt_of_lt_of_eq t.isLt (show cfg0.N = 64 from N_0)
  refine (congrFun (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  have hprev : (outsAt0 m c (t.val - 1) (Nat.lt_of_le_of_lt (Nat.sub_le _ _) t.isLt)).2 (ix2 p q) = runSum (terms m c r cl) 7 :=
    (scratch_eq m c (t.val - 1) _ p q r cl (by show r.val = 1024 * ((t.val - 1) / 16) + p.val; have : r.val = 1024 * (t.val / 16) + p.val := hr; omega)
      (by show cl.val = 1024 * ((t.val - 1) / 8 % 2) + q.val; have : cl.val = 1024 * (t.val / 8 % 2) + q.val := hc; omega)).trans (congrArg _ (by omega))
  have hacc := step_value m c t _ p q r cl 7 h1.symm hr hc hprev
  refine (emit_apply _ (bBlk m c t) p q).trans ?_
  rw [bBlk_apply m c t q cl hc]
  refine (congrArg (· + bArr m c (ix1 cl)) (hacc.trans (runSum_eight _))).trans ?_
  rfl

/-- What a writing point writes back is its block of the layer's value. -/
theorem flushed_eq (c : Dev nD) (t : Fin cfg0.N) (hf : (cfg0.win 4).flush t = true) :
    (dats m 0 c).flushed 4 t = ((cfg0.win 4).blk t).view.read (Elt Ideal) (result m c) := by
  have h1 : t.val % 8 = 7 := (flush0_4 t).mp hf
  have h0 : ¬t.val % 8 = 0 := by omega
  have hi := index_o t
  have hN : t.val < 64 := lt_of_lt_of_eq t.isLt (show cfg0.N = 64 from N_0)
  rw [Value.flushed4_C m c t h0 h1]
  funext j
  rw [View.read_apply]
  have hj0 : (j 0).val < 1024 := (j 0).isLt
  have hj1 : (j 1).val < 1024 := (j 1).isLt
  have e : ((cfg0.win 4).blk t).view.emb j
      = ix2 (⟨1024 * (t.val / 16) + (j 0).val, by omega⟩ : Fin 4096) (⟨1024 * (t.val / 8 % 2) + (j 1).val, by omega⟩ : Fin 2048) := by
    funext a
    apply Fin.ext
    match a with
    | ⟨0, _⟩ => show win0_4.index t (0 : Fin 2) * 1024 + 1 * (j 0).val = 1024 * (t.val / 16) + (j 0).val; rw [hi.1]; omega
    | ⟨1, _⟩ => show win0_4.index t (1 : Fin 2) * 1024 + 1 * (j 1).val = 1024 * (t.val / 8 % 2) + (j 1).val; rw [hi.2]; omega
  rw [e]
  exact emitted_apply m c t h0 h1 _ _ _ rfl rfl

/-- An index of the result array is in a point's block iff each coordinate is in the block's range on its axis. -/
theorem mem_block (t : Fin cfg0.N) (i : S4096x2048.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every index of the result is in the block of a writing point: the last point of its row and column block. -/
theorem cover (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨n, hn⟩ : ∃ n, n = 16 * ((i 0).val / 1024) + 8 * ((i 1).val / 1024) + 7 := ⟨_, rfl⟩
  have hlt : n < cfg0.N := by rw [show cfg0.N = 64 from N_0]; omega
  have hi := index_o ⟨n, hlt⟩
  dsimp only at hi
  refine ⟨⟨n, hlt⟩, (flush0_4 _).mpr (by show n % 8 = 7; omega), ?_⟩
  rw [mem_block]
  intro a
  match a with
  | ⟨0, _⟩ => show win0_4.index ⟨n, hlt⟩ (0 : Fin 2) * 1024 ≤ (i 0).val ∧ (i 0).val < win0_4.index ⟨n, hlt⟩ (0 : Fin 2) * 1024 + 1024; rw [hi.1]; omega
  | ⟨1, _⟩ => show win0_4.index ⟨n, hlt⟩ (1 : Fin 2) * 1024 ≤ (i 1).val ∧ (i 1).val < win0_4.index ⟨n, hlt⟩ (1 : Fin 2) * 1024 + 1024; rw [hi.2]; omega

/-- So the result array ends holding the layer's value. -/
theorem final (c : Dev nD) : (dats m 0 c).arrAt 4 cfg0.N = result m c :=
  (dats m 0 c).arrAt_eq_of_cover 4 (result m c) (flushed_eq m c) cover

/-- The kernel's run: the result array at the layer's value of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Accum

end
-- ==== Proof.RefValue.lean ====
/-
  The reference computes the layer's value.

  The reference multiplies the mask and the weights elementwise, contracts the input's columns against the product's
  rows, broadcasts the bias along the rows (through a 1×2048 row) and adds. Over the extended reals the contraction
  is the plain sum `∑ K, x[r,K] · (mask[K,c] · w[K,c])` and the broadcast reads the bias at the column, so the
  result at `(r, c)` is that sum plus `b[c]`.
-/
import proofs.«159921_j38096359916173_1_alg».proof.Proof.Gen.ReferenceIdeal.Read
import proofs.«159921_j38096359916173_1_alg».proof.Proof.BlockSum

noncomputable section

namespace Cert.ReferenceIdeal.RefValue

open Cert.ReferenceIdeal Cert.ReferenceIdeal.Gen Cert.ReferenceIdeal.Read Idealize.ShloMosaic Idealize.ShloMosaic.ValueIdx
open Cert.MaskedDense

/-- The reference's result, index by index, is the layer's value of its arguments. -/
theorem result_eq (x0 : (⟨S4096x4096, .f32⟩ : BufTy).Contents (Elt Ideal)) (x1 x2 : (⟨S4096x2048, .f32⟩ : BufTy).Contents (Elt Ideal))
    (x3 : (⟨S2048, .f32⟩ : BufTy).Contents (Elt Ideal)) :
    val_main_v4 (F := Ideal) x0 x1 x2 x3 = dense x0 x1 x2 x3 := by
  funext i
  have el : ∀ k : Fin 4096, lidx_main_v1 i k = ix2 (i 0) k := fun k => funext fun a => Fin.ext (by
    match a with
    | ⟨0, _⟩ => rfl
    | ⟨1, _⟩ => rfl)
  have er : ∀ k : Fin 4096, ridx_main_v1 i k = ix2 k (i 1) := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply, eb]
  simp only [val_main_v0_apply, el, er]
  rfl

end Cert.ReferenceIdeal.RefValue

end
-- ==== Proof.lean ====
/-
  A masked dense layer, `out = x · (mask ⊙ w) + b`, computed block by block, against the same layer computed whole.

  The kernel walks a 4 × 2 × 8 grid: for each 1024 × 1024 block of the 4096 × 2048 result it takes the contraction
  of length 4096 in eight blocks of 512. An accumulator is set to zero at the first block, each block adds its
  1024×512 by 512×1024 product of the input block with the elementwise product of the mask and weight blocks, and at
  the eighth block the accumulator plus the bias row is written out. The reference multiplies mask and weights,
  contracts once over all 4096, and adds the bias broadcast along the rows.

  Over the extended reals a change of float format is the identity and a matrix product is the plain sum of
  products, so the kernel's entry at `(r, c)` is `((0 + S₀) + S₁) + … + S₇ + b[c]`, with `Sₖ` the sum of the terms
  `x[r,K] · (mask[K,c] · w[K,c])` for `K` in block `k`, and the reference's is `∑ K, x[r,K] · (mask[K,c] · w[K,c]) + b[c]`.
  Addition of extended reals is commutative and associative, so the two agree with no assumption on the inputs
  beyond what the claim states; the same products appear on both sides and nothing is distributed or cancelled.

  The modules: BlockSum (the regrouping of the sum, and the layer as one function of the arrays), Payloads (the body's
  three stored values at an index), Pieces (what each of the body's three cases leaves in the accumulator and the
  output block), Blocks (where each window's block sits in its array), Accum (the accumulator's invariant across
  the grid, the emitted blocks, their cover of the result, the kernel's run), RefValue (the reference's term is the
  same function). The three frames are the generated ones; no operation was rewritten by the idealization.
-/
import proofs.«159921_j38096359916173_1_alg».proof.Defs
import proofs.«159921_j38096359916173_1_alg».proof.Proof.Gen.Kernel
import proofs.«159921_j38096359916173_1_alg».proof.Proof.Gen.Kernel.Skeleton
import proofs.«159921_j38096359916173_1_alg».proof.Proof.Gen.Kernel.Launch
import proofs.«159921_j38096359916173_1_alg».proof.Proof.Gen.Kernel.Points
import proofs.«159921_j38096359916173_1_alg».proof.Proof.Gen.Kernel.Frame
import proofs.«159921_j38096359916173_1_alg».proof.Proof.Gen.KernelIdeal
import proofs.«159921_j38096359916173_1_alg».proof.Proof.Gen.KernelIdeal.Skeleton
import proofs.«159921_j38096359916173_1_alg».proof.Proof.Gen.KernelIdeal.Launch
import proofs.«159921_j38096359916173_1_alg».proof.Proof.Gen.KernelIdeal.Points
import proofs.«159921_j38096359916173_1_alg».proof.Proof.Gen.KernelIdeal.Frame
import proofs.«159921_j38096359916173_1_alg».proof.Proof.Gen.ReferenceIdeal
import proofs.«159921_j38096359916173_1_alg».proof.Proof.Gen.Pre_finite_inputs
import proofs.«159921_j38096359916173_1_alg».proof.Proof.Gen.KernelIdeal.Value
import proofs.«159921_j38096359916173_1_alg».proof.Proof.Gen.ReferenceIdeal.Run
import proofs.«159921_j38096359916173_1_alg».proof.Proof.Gen.ReferenceIdeal.Read
import proofs.«159921_j38096359916173_1_alg».proof.Proof.Accum
import proofs.«159921_j38096359916173_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's value of arguments that agree: the kernel by the accumulator's invariant and
    the cover of the result by the emitted blocks, the reference by reading its five operations at an index. -/
theorem algebraic : Cert.algebraic_KernelIdeal_ReferenceIdeal := by
  intro m ρ m' ρ' _ hagree
  refine ⟨fun c => Cert.KernelIdeal.Accum.result m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
